-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4096x4096 .f32) (main_arg1 : IVec S512x11008 32) (main_arg2 : IVec S32x1376 32) (main_arg3 : FVec F S32x11008 .f32) (main_arg4 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4096x4096 : Shape := ⟨2, ![4096, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S32x1376x1 : Shape := ⟨3, ![32, 1376, 1]⟩
abbrev S1x1x8 : Shape := ⟨3, ![1, 1, 8]⟩
abbrev S32x1376x8 : Shape := ⟨3, ![32, 1376, 8]⟩
abbrev S1x11008 : Shape := ⟨2, ![1, 11008]⟩
abbrev S4096x11008 : Shape := ⟨2, ![4096, 11008]⟩
abbrev S1024x4096 : Shape := ⟨2, ![1024, 4096]⟩
abbrev S512x256 : Shape := ⟨2, ![512, 256]⟩
abbrev S32x256 : Shape := ⟨2, ![32, 256]⟩
abbrev S1x256 : Shape := ⟨2, ![1, 256]⟩
abbrev S1024x256 : Shape := ⟨2, ![1024, 256]⟩
abbrev S128x256 : Shape := ⟨2, ![128, 256]⟩
abbrev S1x8x1 : Shape := ⟨3, ![1, 8, 1]⟩
abbrev S128x1x256 : Shape := ⟨3, ![128, 1, 256]⟩
abbrev S128x8x256 : Shape := ⟨3, ![128, 8, 256]⟩
abbrev S8x128x256 : Shape := ⟨3, ![8, 128, 256]⟩
abbrev S8x256 : Shape := ⟨2, ![8, 256]⟩
abbrev S8x1x256 : Shape := ⟨3, ![8, 1, 256]⟩
abbrev S1024x1024 : Shape := ⟨2, ![1024, 1024]⟩

abbrev nBuf : Space → Nat
  | .hbm => 26
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S32x1376x1, .i32⟩
  | .hbm, ⟨10, _⟩ => ⟨S1x1x8, .i32⟩
  | .hbm, ⟨11, _⟩ => ⟨S32x1376x8, .i32⟩
  | .hbm, ⟨12, _⟩ => ⟨S32x1376x8, .i32⟩
  | .hbm, ⟨13, _⟩ => ⟨S32x1376x8, .i32⟩
  | .hbm, ⟨14, _⟩ => ⟨S_, .i32⟩
  | .hbm, ⟨15, _⟩ => ⟨S32x1376x8, .i32⟩
  | .hbm, ⟨16, _⟩ => ⟨S32x1376x8, .i32⟩
  | .hbm, ⟨17, _⟩ => ⟨S32x11008, .i32⟩
  | .hbm, ⟨18, _⟩ => ⟨S_, .i32⟩
  | .hbm, ⟨19, _⟩ => ⟨S32x11008, .i32⟩
  | .hbm, ⟨20, _⟩ => ⟨S32x11008, .i32⟩
  | .hbm, ⟨21, _⟩ => ⟨S32x11008, .bf16⟩
  | .hbm, ⟨22, _⟩ => ⟨S32x11008, .bf16⟩
  | .hbm, ⟨23, _⟩ => ⟨S1x11008, .f32⟩
  | .hbm, ⟨24, _⟩ => ⟨S4096x4096, .bf16⟩
  | .hbm, ⟨25, _⟩ => ⟨S4096x11008, .f32⟩
  | .local _ .vmem, ⟨0, _⟩ => ⟨S1024x4096, .bf16⟩
  | .local _ .vmem, ⟨1, _⟩ => ⟨S1024x4096, .bf16⟩
  | .local _ .vmem, ⟨2, _⟩ => ⟨S512x256, .i32⟩
  | .local _ .vmem, ⟨3, _⟩ => ⟨S512x256, .i32⟩
  | .local _ .vmem, ⟨4, _⟩ => ⟨S32x256, .bf16⟩
  | .local _ .vmem, ⟨5, _⟩ => ⟨S32x256, .bf16⟩
  | .local _ .vmem, ⟨6, _⟩ => ⟨S32x256, .bf16⟩
  | .local _ .vmem, ⟨7, _⟩ => ⟨S32x256, .bf16⟩
  | .local _ .vmem, ⟨8, _⟩ => ⟨S1x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 43], ![false, false]⟩

def k0_mult1 : BitVec 32 :=
  let c0_i32 : BitVec 32 := 0#32
  let c1024_i32 : BitVec 32 := 1024#32
  let v4 : BitVec 32 := Scalar.muli c0_i32 c1024_i32
  v4
def k0_mult2 : BitVec 32 :=
  let c0_i32 : BitVec 32 := 0#32
  let c128_i32 : BitVec 32 := 128#32
  let v6 : BitVec 32 := Scalar.muli c0_i32 c128_i32
  v6
def k0_mult3 : BitVec 32 :=
  let c0_i32 : BitVec 32 := 0#32
  let c8_i32 : BitVec 32 := 8#32
  let v8 : BitVec 32 := Scalar.muli c0_i32 c8_i32
  v8
def k0_off1 (c0_i32 : BitVec 32) : Fin 2 → Nat :=
  let c128_i32 : BitVec 32 := 128#32
  let v6 : BitVec 32 := Scalar.muli c0_i32 c128_i32
  let v7 : BitVec 32 := v6
  let v10 : Index := Scalar.indexCast v7
  let c0_1 : Index := 0#32
  ![v10.toNat, 0]
def k0_off2 (c0_i32 : BitVec 32) : Fin 2 → Nat :=
  let c8_i32 : BitVec 32 := 8#32
  let v8 : BitVec 32 := Scalar.muli c0_i32 c8_i32
  let v9 : BitVec 32 := v8
  let v24 : Index := Scalar.indexCast v9
  let c0_2 : Index := 0#32
  ![v24.toNat, 0]
def k0_off3 (c0_i32 : BitVec 32) : Fin 2 → Nat :=
  let c0_4 : Index := 0#32
  let c1024_i32 : BitVec 32 := 1024#32
  let v4 : BitVec 32 := Scalar.muli c0_i32 c1024_i32
  let v5 : BitVec 32 := v4
  let v37 : Index := Scalar.indexCast v5
  ![0, v37.toNat]
def k0_mult4 : BitVec 32 :=
  let c1_i32 : BitVec 32 := 1#32
  let c1024_i32_5 : BitVec 32 := 1024#32
  let v42 : BitVec 32 := Scalar.muli c1_i32 c1024_i32_5
  v42
def k0_mult5 : BitVec 32 :=
  let c1_i32 : BitVec 32 := 1#32
  let c128_i32_6 : BitVec 32 := 128#32
  let v44 : BitVec 32 := Scalar.muli c1_i32 c128_i32_6
  v44
def k0_mult6 : BitVec 32 :=
  let c1_i32 : BitVec 32 := 1#32
  let c8_i32_7 : BitVec 32 := 8#32
  let v46 : BitVec 32 := Scalar.muli c1_i32 c8_i32_7
  v46
def k0_mult7 : BitVec 32 :=
  let c2_i32 : BitVec 32 := 2#32
  let c1024_i32_15 : BitVec 32 := 1024#32
  let v80 : BitVec 32 := Scalar.muli c2_i32 c1024_i32_15
  v80
def k0_mult8 : BitVec 32 :=
  let c2_i32 : BitVec 32 := 2#32
  let c128_i32_16 : BitVec 32 := 128#32
  let v82 : BitVec 32 := Scalar.muli c2_i32 c128_i32_16
  v82
def k0_mult9 : BitVec 32 :=
  let c2_i32 : BitVec 32 := 2#32
  let c8_i32_17 : BitVec 32 := 8#32
  let v84 : BitVec 32 := Scalar.muli c2_i32 c8_i32_17
  v84
def k0_mult10 : BitVec 32 :=
  let c3_i32 : BitVec 32 := 3#32
  let c1024_i32_25 : BitVec 32 := 1024#32
  let v118 : BitVec 32 := Scalar.muli c3_i32 c1024_i32_25
  v118
def k0_mult11 : BitVec 32 :=
  let c3_i32 : BitVec 32 := 3#32
  let c128_i32_26 : BitVec 32 := 128#32
  let v120 : BitVec 32 := Scalar.muli c3_i32 c128_i32_26
  v120
def k0_mult12 : BitVec 32 :=
  let c3_i32 : BitVec 32 := 3#32
  let c8_i32_27 : BitVec 32 := 8#32
  let v122 : BitVec 32 := Scalar.muli c3_i32 c8_i32_27
  v122
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S32x11008 : S_.BroadcastsInDim S32x11008 (![] : Fin 0 → Fin S32x11008.rank)
  bitsLt_bf16_f32 : FTy.bits .bf16 < FTy.bits .f32
  shapeCasts_S11008_S1x11008 : S11008.ShapeCasts S1x11008
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  h_S128x256 : 0 < S128x256.numel
  iota_S1x8x1_d1_w32 : S1x8x1.Iotas .tc 32 [1]
  shapeCasts_S128x256_S128x1x256 : S128x256.ShapeCasts S128x1x256
  broadcasts_S128x1x256_S128x8x256 : S128x1x256.Broadcasts S128x8x256
  broadcasts_S1x8x1_S128x8x256 : S1x8x1.Broadcasts S128x8x256
  shapeCasts_S128x8x256_S1024x256 : S128x8x256.ShapeCasts S1024x256
  shapeCasts_S1024x256_S8x128x256 : S1024x256.ShapeCasts S8x128x256
  h_S8x256 : 0 < S8x256.numel
  shapeCasts_S8x256_S8x256 : S8x256.ShapeCasts S8x256
  shapeCasts_S8x256_S8x1x256 : S8x256.ShapeCasts S8x1x256
  broadcasts_S8x1x256_S8x128x256 : S8x1x256.Broadcasts S8x128x256
  shapeCasts_S8x128x256_S1024x256 : S8x128x256.ShapeCasts S1024x256
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  dot_S1024x1024_S1024x256_S1024x256_1_0_0_1_n_n_wf : DotDims.WF S1024x1024 S1024x256 S1024x256 [1] [0] [0] [1] [] []
  hrank0 : 0 < grid0.rank
  k0_mult1_dvd : 1024 ∣ k0_mult1.toNat
  k0_mult2_dvd : 128 ∣ k0_mult2.toNat
  k0_mult3_dvd : 8 ∣ k0_mult3.toNat
  k0_off1_inb : ∀ (r : Fin 4), ∀ a, (k0_off1 (BitVec.ofNat 32 r.val)) a + S128x256.size a ≤ S512x256.size a
  k0_off2_inb : ∀ (r : Fin 4), ∀ a, (k0_off2 (BitVec.ofNat 32 r.val)) a + S8x256.size a ≤ S32x256.size a
  k0_off3_inb : ∀ (r : Fin 4), ∀ a, (k0_off3 (BitVec.ofNat 32 r.val)) a + S1024x1024.size a ≤ S1024x4096.size a
  k0_mult4_dvd : 1024 ∣ k0_mult4.toNat
  k0_mult5_dvd : 128 ∣ k0_mult5.toNat
  k0_mult6_dvd : 8 ∣ k0_mult6.toNat
  k0_mult7_dvd : 1024 ∣ k0_mult7.toNat
  k0_mult8_dvd : 128 ∣ k0_mult8.toNat
  k0_mult9_dvd : 8 ∣ k0_mult9.toNat
  k0_mult10_dvd : 1024 ∣ k0_mult10.toNat
  k0_mult11_dvd : 128 ∣ k0_mult11.toNat
  k0_mult12_dvd : 8 ∣ k0_mult12.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x11008.size a
  hwx0_1 : ∀ i : grid0.Coords, EltTy.bits .i32 = 32 ∨ (Rect.block (s := S512x11008) S512x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x11008.size a
  hwx0_2 : ∀ i : grid0.Coords, EltTy.bits .bf16 = 32 ∨ (Rect.block (s := S32x11008) S32x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x11008.size a
  hwx0_3 : ∀ i : grid0.Coords, EltTy.bits .bf16 = 32 ∨ (Rect.block (s := S32x11008) S32x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x11008.size a
  hwx0_5 : ∀ i : grid0.Coords, EltTy.bits .f32 = 32 ∨ (Rect.block (s := S4096x11008) S1024x256.size (cc0_transform_5 i) (hinb0_5 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v16) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x1376x1 : Shape := ⟨3, ![32, 1376, 1]⟩
abbrev S1x1x8 : Shape := ⟨3, ![1, 1, 8]⟩
abbrev S32x1376x8 : Shape := ⟨3, ![32, 1376, 8]⟩
abbrev S32x128x11008 : Shape := ⟨3, ![32, 128, 11008]⟩
abbrev S32x1x11008 : Shape := ⟨3, ![32, 1, 11008]⟩
abbrev S1x11008 : Shape := ⟨2, ![1, 11008]⟩

abbrev nBuf : Space → Nat
  | .hbm => 44
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S512x1x11008, .i32⟩
  | .hbm, ⟨10, _⟩ => ⟨S1x8x1, .i32⟩
  | .hbm, ⟨11, _⟩ => ⟨S512x8x11008, .i32⟩
  | .hbm, ⟨12, _⟩ => ⟨S512x8x11008, .i32⟩
  | .hbm, ⟨13, _⟩ => ⟨S512x8x11008, .i32⟩
  | .hbm, ⟨14, _⟩ => ⟨S_, .i32⟩
  | .hbm, ⟨15, _⟩ => ⟨S512x8x11008, .i32⟩
  | .hbm, ⟨16, _⟩ => ⟨S512x8x11008, .i32⟩
  | .hbm, ⟨17, _⟩ => ⟨S4096x11008, .i32⟩
  | .hbm, ⟨18, _⟩ => ⟨S32x1376x1, .i32⟩
  | .hbm, ⟨19, _⟩ => ⟨S1x1x8, .i32⟩
  | .hbm, ⟨20, _⟩ => ⟨S32x1376x8, .i32⟩
  | .hbm, ⟨21, _⟩ => ⟨S32x1376x8, .i32⟩
  | .hbm, ⟨22, _⟩ => ⟨S32x1376x8, .i32⟩
  | .hbm, ⟨23, _⟩ => ⟨S_, .i32⟩
  | .hbm, ⟨24, _⟩ => ⟨S32x1376x8, .i32⟩
  | .hbm, ⟨25, _⟩ => ⟨S32x1376x8, .i32⟩
  | .hbm, ⟨26, _⟩ => ⟨S32x11008, .i32⟩
  | .hbm, ⟨27, _⟩ => ⟨S_, .i32⟩
  | .hbm, ⟨28, _⟩ => ⟨S32x11008, .i32⟩
  | .hbm, ⟨29, _⟩ => ⟨S32x11008, .i32⟩
  | .hbm, ⟨30, _⟩ => ⟨S32x128x11008, .i32⟩
  | .hbm, ⟨31, _⟩ => ⟨S32x128x11008, .f32⟩
  | .hbm, ⟨32, _⟩ => ⟨S32x1x11008, .i32⟩
  | .hbm, ⟨33, _⟩ => ⟨S32x1x11008, .f32⟩
  | .hbm, ⟨34, _⟩ => ⟨S32x128x11008, .f32⟩
  | .hbm, ⟨35, _⟩ => ⟨S32x128x11008, .f32⟩
  | .hbm, ⟨36, _⟩ => ⟨S32x1x11008, .f32⟩
  | .hbm, ⟨37, _⟩ => ⟨S32x128x11008, .f32⟩
  | .hbm, ⟨38, _⟩ => ⟨S32x128x11008, .f32⟩
  | .hbm, ⟨39, _⟩ => ⟨S4096x11008, .f32⟩
  | .hbm, ⟨40, _⟩ => ⟨S4096x11008, .f32⟩
  | .hbm, ⟨41, _⟩ => ⟨S1x11008, .f32⟩
  | .hbm, ⟨42, _⟩ => ⟨S4096x11008, .f32⟩
  | .hbm, ⟨43, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S32x11008 : S_.BroadcastsInDim S32x11008 (![] : Fin 0 → Fin S32x11008.rank)
  shapeCasts_S4096x11008_S32x128x11008 : S4096x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  dot_S4096x4096_S4096x11008_S4096x11008_1_0_0_1_n_n_wf : DotDims.WF S4096x4096 S4096x11008 S4096x11008 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.Spec.lean ====
/-
  Weight-only int4 linear layer: the one function both programs compute, and the two laws that join them.

  A packed word holds eight 4-bit fields; field `s` of word `x` is `(x >> 4·s) & 15` (arithmetic shift — the
  amount is below the width, so every unit shifts alike). Input row `k` of the 4096 × 11008 weight matrix lies in packed row
  `k / 8`, field `k % 8`, and in quantization group `k / 128`. With `Z` the group's integer zero point and
  `sc` its scale, the dequantized weight is `(w − Z) · sc` on the extended reals, the integers read exactly.
  The layer's output at `(r, n)` is `Σ_k x[r, k] · W[k, n] + bias[n]`.

  One side accumulates the contraction in four consecutive chunks of 1024 onto the bias; the other takes the
  whole sum and adds the bias last. Extended-real addition is commutative and associative, so the two agree
  with no finiteness assumption (`chunks_onto_bias`, over `sum_chunks`).
-/
import Idealize.ShloMosaic.PureOps.Ideal
import Idealize.ShloMosaic.Lib.ValueIdx

noncomputable section

open scoped BigOperators

namespace Cert.Wol

open Idealize.ShloMosaic Idealize.ShloMosaic.ValueIdx

/-- The shift amount of field `s`: `4·s`, as the 32-bit word both programs compute it (`iota · 4`). -/
def shiftOf (s : Fin 8) : BitVec 32 := IntOp.muli (BitVec.ofNat 32 s.val) 4#32

/-- Every field's shift amount is below the word's width. -/
theorem shiftOf_lt (s : Fin 8) : (shiftOf s).toNat < 32 := by
  revert s; decide

/-- Below the width the vector unit's arithmetic shift is the host's. -/
theorem shrsi_vector_eq_host (x : BitVec 32) (s : Fin 8) :
    IntOp.shrsi .vector x (shiftOf s) = IntOp.shrsi .host x (shiftOf s) := by
  unfold IntOp.shrsi
  rw [if_pos (shiftOf_lt s), if_pos (shiftOf_lt s)]

/-- Field `s` of the packed word `x`. -/
def nibble (x : BitVec 32) (s : Fin 8) : BitVec 32 :=
  IntOp.andi (IntOp.shrsi .host x (shiftOf s)) 15#32

/-- The packed row, the field and the quantization group of contraction index `k`. -/
def packRow (k : Fin 4096) : Fin 512 := ⟨k.val / 8, by omega⟩
def field (k : Fin 4096) : Fin 8 := ⟨k.val % 8, by omega⟩
def group (k : Fin 4096) : Fin 32 := ⟨k.val / 128, by omega⟩

/-- The dequantized weight `W[k, n] = (w − Z) · sc`: the field of the packed word and the group's zero point read as
    exact integers, the group's scale an extended real. -/
def weight (qw : (⟨2, ![512, 11008]⟩ : Shape).Idx → BitVec 32) (Z : (⟨2, ![32, 11008]⟩ : Shape).Idx → BitVec 32)
    (sc : (⟨2, ![32, 11008]⟩ : Shape).Idx → EReal) (k : Fin 4096) (n : Fin 11008) : EReal :=
  ((((nibble (qw (ix2 (packRow k) n)) (field k)).toInt : ℝ) : EReal) - (((Z (ix2 (group k) n)).toInt : ℝ) : EReal))
    * sc (ix2 (group k) n)

/-- The layer: `out[r, n] = Σ_k x[r, k] · W[k, n] + bias[n]`. -/
def linear (x : (⟨2, ![4096, 4096]⟩ : Shape).Idx → EReal) (qw : (⟨2, ![512, 11008]⟩ : Shape).Idx → BitVec 32)
    (Z : (⟨2, ![32, 11008]⟩ : Shape).Idx → BitVec 32) (sc : (⟨2, ![32, 11008]⟩ : Shape).Idx → EReal)
    (bias : (⟨1, ![11008]⟩ : Shape).Idx → EReal) : (⟨2, ![4096, 11008]⟩ : Shape).Idx → EReal :=
  fun i => (∑ k : Fin 4096, x (ix2 (i 0) k) * weight qw Z sc k (i 1)) + bias (ix1 (i 1))

/-- Position `j` of chunk `c` among the 4096 contraction indices. -/
def chunkIdx (c : Fin 4) (j : Fin 1024) : Fin 4096 := ⟨j.val + 1024 * c.val, by omega⟩

/-- A sum over the 4096 contraction indices is the sum of its four consecutive chunks of 1024. -/
theorem sum_chunks (f : Fin 4096 → EReal) :
    ∑ k : Fin 4096, f k = ∑ c : Fin 4, ∑ j : Fin 1024, f (chunkIdx c j) :=
  calc ∑ k : Fin 4096, f k = ∑ p : Fin 4 × Fin 1024, f (chunkIdx p.1 p.2) :=
        (Equiv.sum_comp (finProdFinEquiv (m := 4) (n := 1024)) f).symm
    _ = _ := Fintype.sum_prod_type' (fun c j => f (chunkIdx c j))

/-- Four partial sums accumulated one after another onto the bias are the whole sum with the bias added last. -/
theorem chunks_onto_bias (b : EReal) (f : Fin 4096 → EReal) :
    b + (∑ j : Fin 1024, f (chunkIdx 0 j)) + (∑ j : Fin 1024, f (chunkIdx 1 j))
        + (∑ j : Fin 1024, f (chunkIdx 2 j)) + (∑ j : Fin 1024, f (chunkIdx 3 j))
      = (∑ k : Fin 4096, f k) + b := by
  rw [sum_chunks, Fin.sum_univ_four]
  ac_rfl

/-- The chunk position's packed row, field and group, from the position inside the chunk. -/
theorem packRow_chunkIdx (c : Fin 4) (j : Fin 1024) : (packRow (chunkIdx c j)).val = 128 * c.val + j.val / 8 := by
  show (j.val + 1024 * c.val) / 8 = _; omega
theorem field_chunkIdx (c : Fin 4) (j : Fin 1024) : (field (chunkIdx c j)).val = j.val % 8 := by
  show (j.val + 1024 * c.val) % 8 = _; omega
theorem group_chunkIdx (c : Fin 4) (j : Fin 1024) : (group (chunkIdx c j)).val = 8 * c.val + j.val / 128 := by
  show (j.val + 1024 * c.val) / 128 = _; omega

end Cert.Wol

end
-- ==== Proof.KernelChunk.lean ====
/-
  One chunk of the contraction, inside the kernel body.

  The body runs the same step four times. A step takes 128 packed rows of the weight block (1024 input rows once
  unpacked), the eight quantization groups they span (zero points and scales), and the matching 1024 columns of the
  activation block; it unpacks field `j % 8` of packed row `j / 8`, subtracts the zero point of group `j / 128`,
  multiplies by that group's scale, and adds the product of the activation columns with these 1024 weights to the
  accumulator. Read at one output element this is
    acc[r, n] + Σ_j xs[r, j] · ((w[j / 8, n] field (j % 8)) − zp[j / 128, n]) · sc[j / 128, n].
-/
import proofs.«422949_j85014582657685_3_alg».proof.Proof.Gen.KernelIdeal.Skeleton
import proofs.«422949_j85014582657685_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Chunk

open Cert.KernelIdeal Cert.KernelIdeal.Gen Idealize.ShloMosaic Idealize.ShloMosaic.ValueIdx Cert.Wol

variable {F : FTy → Type} [FloatOps F]

/-! ## The step, named -/

/-- The unpacked integer weights of a chunk: field `s` of packed word `(p, n)` at `(p, s, n)`. -/
def fields (qw : Vec F S128x256 .i32) : IVec S128x8x256 32 :=
  andi (shrsi (broadcastTo S128x8x256 (shapeCast S128x1x256 qw shapeCasts_S128x256_S128x1x256) broadcasts_S128x1x256_S128x8x256)
      (broadcastTo S128x8x256 (muli (iota .tc S1x8x1 32 [1] iota_S1x8x1_d1_w32) (broadcast S1x8x1 4#32)) broadcasts_S1x8x1_S128x8x256))
    (broadcast S128x8x256 15#32)

/-- The dequantized chunk from already unpacked weights: rows regrouped by 128, `(w − zp) · sc` group by group. -/
def dequant (w : FVec F S128x8x256 .bf16) (zp sc : Vec F S8x256 .bf16) : FVec F S1024x256 .bf16 :=
  shapeCast S1024x256
    (mulf
      (subf (shapeCast S8x128x256 (shapeCast S1024x256 w shapeCasts_S128x8x256_S1024x256) shapeCasts_S1024x256_S8x128x256)
        (broadcastTo S8x128x256 (shapeCast S8x1x256 (shapeCast S8x256 zp shapeCasts_S8x256_S8x256) shapeCasts_S8x256_S8x1x256)
          broadcasts_S8x1x256_S8x128x256))
      (broadcastTo S8x128x256 (shapeCast S8x1x256 (shapeCast S8x256 sc shapeCasts_S8x256_S8x256) shapeCasts_S8x256_S8x1x256)
        broadcasts_S8x1x256_S8x128x256))
    shapeCasts_S8x128x256_S1024x256

/-- One accumulation step: the accumulator plus activations times the dequantized chunk. -/
def step (a : FVec F S1024x256 .f32) (w : FVec F S128x8x256 .bf16) (zp sc : Vec F S8x256 .bf16) (xs : Vec F S1024x1024 .bf16) :
    FVec F S1024x256 .f32 :=
  addf a (matmul dot_S1024x1024_S1024x256_S1024x256_1_0_0_1_n_n none
    (shapeCast S1024x1024 xs shapeCasts_S1024x1024_S1024x1024) (dequant w zp sc) (constant S1024x256 .f32 0x00000000#32))

/-- The accumulator the first step starts from: the bias row repeated down the 1024 rows. -/
def biasRows (b : Vec F S1x256 .f32) : FVec F S1024x256 .f32 :=
  broadcastTo S1024x256 (shapeCast S1x256 (shapeCast S1x256 b shapeCasts_S1x256_S1x256) shapeCasts_S1x256_S1x256) broadcasts_S1x256_S1024x256

/-- The body's four accumulated values are four steps (the printed arithmetic, regrouped). -/
theorem pay2_eq (b : Vec F S1x256 .f32) (qw : Vec F S128x256 .i32) (zp sc : Vec F S8x256 .bf16) (xs : Vec F S1024x1024 .bf16) :
    k0_pay2 b qw zp sc xs = step (biasRows b) (sitofp .bf16 (fields qw)) zp sc xs := rfl
theorem pay3_eq (a : FVec F S1024x256 .f32) (qw : Vec F S128x256 .i32) (zp sc : Vec F S8x256 .bf16) (xs : Vec F S1024x1024 .bf16) :
    k0_pay3 a qw zp sc xs = step a (sitofp .bf16 (fields qw)) zp sc xs := rfl
theorem pay4_eq (a : FVec F S1024x256 .f32) (qw : Vec F S128x256 .i32) (zp sc : Vec F S8x256 .bf16) (xs : Vec F S1024x1024 .bf16) :
    k0_pay4 a qw (iota .tc S1x8x1 32 [1] iota_S1x8x1_d1_w32) zp sc xs = step a (sitofp .bf16 (fields qw)) zp sc xs := rfl
theorem pay1_eq (a : FVec F S1024x256 .f32) (qw : Vec F S128x256 .i32) (zp sc : Vec F S8x256 .bf16) (xs : Vec F S1024x1024 .bf16) :
    k0_pay1 a (k0_pay5 qw) zp sc xs = step a (sitofp .bf16 (fields qw)) zp sc xs := rfl

end Cert.KernelIdeal.Chunk

end
-- ==== Proof.ChunkAt.lean ====
/-
  The chunk step read at one output element, on the extended reals.

  Unpacking: the word at packed row `p`, column `n` is repeated along a new axis of eight, shifted right by `4·s` at
  position `s` and masked to four bits — field `s` of the word (the shift amount is below 32, where the vector unit shifts
  as the host does). Regrouping: rows `(p, s)` flatten to `j = 8p + s`, and `j` splits again as group `j / 128`, row
  `j % 128` of the group; zero point and scale are constant along a group's 128 rows. The product with the activation
  columns, accumulated into zero, is the plain sum over `j` of `xs[r, j] · W[j, n]`.
-/
import proofs.«422949_j85014582657685_3_alg».proof.Proof.KernelChunk

noncomputable section

open scoped BigOperators

namespace Cert.KernelIdeal.Chunk

open Cert.KernelIdeal Cert.KernelIdeal.Gen Idealize.ShloMosaic Idealize.ShloMosaic.ValueIdx Cert.Wol

/-- Field `s` of the packed word at `(p, n)`. -/
theorem fields_apply (qw : S128x256.Idx → BitVec 32) (p : Fin 128) (s : Fin 8) (n : Fin 256) :
    fields (F := Ideal) qw (ix3 p s n) = nibble (qw (ix2 p n)) s := by
  have e1 : broadcastTo S128x8x256 (shapeCast S128x1x256 qw shapeCasts_S128x256_S128x1x256) broadcasts_S128x1x256_S128x8x256 (ix3 p s n)
      = qw (ix2 p n) := by
    refine (broadcastTo_apply _ broadcasts_S128x1x256_S128x8x256 (ix3 p s n) (ix3 p (0 : Fin 1) n) (fun a => match a with
      | ⟨0, _⟩ => by show p.val = if (128 : Nat) = 1 then 0 else p.val; rw [if_neg (by decide)]
      | ⟨1, _⟩ => by show (0 : Nat) = if (1 : Nat) = 1 then 0 else s.val; rw [if_pos rfl]
      | ⟨2, _⟩ => by show n.val = if (256 : Nat) = 1 then 0 else n.val; rw [if_neg (by decide)])).trans ?_
    exact shapeCast_apply qw shapeCasts_S128x256_S128x1x256 (ix3 p (0 : Fin 1) n) (ix2 p n) (by
      rw [Shape.rowMajor_val_two, Shape.rowMajor_val_three]
      show p.val * 256 + n.val = (p.val * 1 + 0) * 256 + n.val
      omega)
  have e2 : broadcastTo S128x8x256 (muli (iota .tc S1x8x1 32 [1] iota_S1x8x1_d1_w32) (broadcast S1x8x1 4#32))
      broadcasts_S1x8x1_S128x8x256 (ix3 p s n) = shiftOf s := by
    refine (broadcastTo_apply _ broadcasts_S1x8x1_S128x8x256 (ix3 p s n) (ix3 (0 : Fin 1) s (0 : Fin 1)) (fun a => match a with
      | ⟨0, _⟩ => by show (0 : Nat) = if (1 : Nat) = 1 then 0 else p.val; rw [if_pos rfl]
      | ⟨1, _⟩ => by show s.val = if (8 : Nat) = 1 then 0 else s.val; rw [if_neg (by decide)]
      | ⟨2, _⟩ => by show (0 : Nat) = if (1 : Nat) = 1 then 0 else n.val; rw [if_pos rfl])).trans ?_
    show IntOp.muli (iota .tc S1x8x1 32 [1] iota_S1x8x1_d1_w32 (ix3 (0 : Fin 1) s (0 : Fin 1))) 4#32 = _
    rw [iota_single_apply]
    rfl
  show IntOp.andi (IntOp.shrsi .vector
      (broadcastTo S128x8x256 (shapeCast S128x1x256 qw shapeCasts_S128x256_S128x1x256) broadcasts_S128x1x256_S128x8x256 (ix3 p s n))
      (broadcastTo S128x8x256 (muli (iota .tc S1x8x1 32 [1] iota_S1x8x1_d1_w32) (broadcast S1x8x1 4#32))
        broadcasts_S1x8x1_S128x8x256 (ix3 p s n))) 15#32 = _
  rw [e1, e2, shrsi_vector_eq_host]
  rfl

/-- A per-group row repeated along its group's 128 rows reads the group's entry. -/
theorem groupRows_apply (v : S8x256.Idx → EReal) (g : Fin 8) (q : Fin 128) (n : Fin 256) :
    broadcastTo S8x128x256 (shapeCast S8x1x256 (shapeCast S8x256 v shapeCasts_S8x256_S8x256) shapeCasts_S8x256_S8x1x256)
      broadcasts_S8x1x256_S8x128x256 (ix3 g q n) = v (ix2 g n) := by
  rw [shapeCast_self]
  refine (broadcastTo_apply _ broadcasts_S8x1x256_S8x128x256 (ix3 g q n) (ix3 g (0 : Fin 1) n) (fun a => match a with
    | ⟨0, _⟩ => by show g.val = if (8 : Nat) = 1 then 0 else g.val; rw [if_neg (by decide)]
    | ⟨1, _⟩ => by show (0 : Nat) = if (1 : Nat) = 1 then 0 else q.val; rw [if_pos rfl]
    | ⟨2, _⟩ => by show n.val = if (256 : Nat) = 1 then 0 else n.val; rw [if_neg (by decide)])).trans ?_
  exact shapeCast_apply v shapeCasts_S8x256_S8x1x256 (ix3 g (0 : Fin 1) n) (ix2 g n) (by
    rw [Shape.rowMajor_val_two, Shape.rowMajor_val_three]
    show g.val * 256 + n.val = (g.val * 1 + 0) * 256 + n.val
    omega)

/-- The dequantized chunk at row `j`, column `n`: the weight at packed row `j / 8`, field `j % 8`, less the zero
    point of group `j / 128`, times that group's scale. -/
theorem dequant_apply (w : S128x8x256.Idx → EReal) (zp sc : S8x256.Idx → EReal) (j : Fin 1024) (n : Fin 256) :
    dequant (F := Ideal) w zp sc (ix2 j n)
      = (w (ix3 (⟨j.val / 8, by omega⟩ : Fin 128) (⟨j.val % 8, by omega⟩ : Fin 8) n) - zp (ix2 (⟨j.val / 128, by omega⟩ : Fin 8) n))
          * sc (ix2 (⟨j.val / 128, by omega⟩ : Fin 8) n) := by
  unfold dequant
  refine (shapeCast_apply _ shapeCasts_S8x128x256_S1024x256 (ix2 j n)
    (ix3 (⟨j.val / 128, by omega⟩ : Fin 8) (⟨j.val % 128, by omega⟩ : Fin 128) n) (by
      rw [Shape.rowMajor_val_two, Shape.rowMajor_val_three]
      show (j.val / 128 * 128 + j.val % 128) * 256 + n.val = j.val * 256 + n.val
      omega)).trans ?_
  have eW : shapeCast S8x128x256 (shapeCast S1024x256 w shapeCasts_S128x8x256_S1024x256) shapeCasts_S1024x256_S8x128x256
      (ix3 (⟨j.val / 128, by omega⟩ : Fin 8) (⟨j.val % 128, by omega⟩ : Fin 128) n)
      = w (ix3 (⟨j.val / 8, by omega⟩ : Fin 128) (⟨j.val % 8, by omega⟩ : Fin 8) n) := by
    refine (shapeCast_apply _ shapeCasts_S1024x256_S8x128x256 _ (ix2 j n) (by
      rw [Shape.rowMajor_val_two, Shape.rowMajor_val_three]
      show j.val * 256 + n.val = (j.val / 128 * 128 + j.val % 128) * 256 + n.val
      omega)).trans ?_
    exact shapeCast_apply w shapeCasts_S128x8x256_S1024x256 (ix2 j n) _ (by
      rw [Shape.rowMajor_val_two, Shape.rowMajor_val_three]
      show (j.val / 8 * 8 + j.val % 8) * 256 + n.val = j.val * 256 + n.val
      omega)
  show (shapeCast S8x128x256 (shapeCast S1024x256 w shapeCasts_S128x8x256_S1024x256) shapeCasts_S1024x256_S8x128x256
        (ix3 (⟨j.val / 128, by omega⟩ : Fin 8) (⟨j.val % 128, by omega⟩ : Fin 128) n)
      - broadcastTo S8x128x256 (shapeCast S8x1x256 (shapeCast S8x256 zp shapeCasts_S8x256_S8x256) shapeCasts_S8x256_S8x1x256)
          broadcasts_S8x1x256_S8x128x256 (ix3 (⟨j.val / 128, by omega⟩ : Fin 8) (⟨j.val % 128, by omega⟩ : Fin 128) n))
      * broadcastTo S8x128x256 (shapeCast S8x1x256 (shapeCast S8x256 sc shapeCasts_S8x256_S8x256) shapeCasts_S8x256_S8x1x256)
          broadcasts_S8x1x256_S8x128x256 (ix3 (⟨j.val / 128, by omega⟩ : Fin 8) (⟨j.val % 128, by omega⟩ : Fin 128) n) = _
  rw [eW, groupRows_apply, groupRows_apply]

/-! ## The product with the activation columns -/

theorem lhs_axis0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_axis1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_axis0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_axis1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- One step at an output element: the accumulator there plus the sum over the chunk's 1024 rows of activation times
    dequantized weight. -/
theorem step_apply (a : S1024x256.Idx → EReal) (w : S128x8x256.Idx → EReal) (zp sc : S8x256.Idx → EReal)
    (xs : S1024x1024.Idx → EReal) (r : Fin 1024) (n : Fin 256) :
    step (F := Ideal) a w zp sc xs (ix2 r n)
      = a (ix2 r n) + ∑ j : Fin 1024, xs (ix2 r j) * dequant (F := Ideal) w zp sc (ix2 j n) := by
  unfold step
  generalize dequant (F := Ideal) w zp sc = y0
  rw [shapeCast_self]
  show a (ix2 r n) + matmul dot_S1024x1024_S1024x256_S1024x256_1_0_0_1_n_n none xs y0 (constant S1024x256 .f32 0x00000000#32) (ix2 r n) = _
  refine congrArg (a (ix2 r n) + ·) ?_
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r n) ((contrEquiv1 dot_S1024x1024_S1024x256_S1024x256_1_0_0_1_n_n 1024 rfl rfl).symm k) = ix2 r k := funext fun a => Fin.ext (by
    match a with
    | ⟨0, _⟩ => exact lhs_axis0 _ _
    | ⟨1, _⟩ => exact (lhs_axis1 _ _).trans hk)
  have er : dot_S1024x1024_S1024x256_S1024x256_1_0_0_1_n_n.rhsIdx (ix2 r n) ((contrEquiv1 dot_S1024x1024_S1024x256_S1024x256_1_0_0_1_n_n 1024 rfl rfl).symm k) = ix2 k n := funext fun a => Fin.ext (by
    match a with
    | ⟨0, _⟩ => exact (rhs_axis0 _ _).trans hk
    | ⟨1, _⟩ => exact rhs_axis1 _ _)
  rw [el, er]

end Cert.KernelIdeal.Chunk

end
-- ==== Proof.BodyValue.lean ====
/-
  What the kernel body leaves in its output block, as the layer of the whole arrays.

  The body loads the bias row, and per chunk `c = 0..3` the packed rows `[128c, 128c + 128)` of the weight block, the
  group rows `[8c, 8c + 8)` of the zero-point and scale blocks, and the columns `[1024c, 1024c + 1024)` of the activation
  block; it stores the fourth accumulated value over its whole output block. So the block at `(r, n)` holds
    bias[n] + T₀ + T₁ + T₂ + T₃,   T_c = Σ_j x[r, 1024c + j] · W[1024c + j, n],
  where input row `1024c + j` has packed row `128c + j / 8`, field `j % 8` and group `8c + j / 128`. When the point's
  blocks are rows `[1024·i₀, …)` of the activations and columns `[256·i₁, …)` of everything else, this is the layer's
  output at `(1024·i₀ + r, 256·i₁ + n)`: the four chunk sums are the whole contraction and the bias commutes to the end.
-/
import proofs.«422949_j85014582657685_3_alg».proof.Proof.Gen.KernelIdeal.Frame
import proofs.«422949_j85014582657685_3_alg».proof.Proof.ChunkAt

set_option maxRecDepth 16384

noncomputable section

open scoped BigOperators

namespace Cert.KernelIdeal.Body

open Cert.KernelIdeal Cert.KernelIdeal.Gen Cert.KernelIdeal.Chunk Idealize.ShloMosaic Idealize.ShloMosaic.TcCoe
open Idealize.ShloMosaic.ValueIdx Idealize.ShloMosaic.Tactic Idealize.SL.Sem Cert.Wol

variable {F : FTy → Type} [FloatOps F]

theorem zeros2 : (![0, 0] : Fin 2 → Nat) = fun _ => 0 := funext fun a => by fin_cases a <;> rfl

/-! ## The body's loads, named -/

/-- Packed rows `[o, o + 128)` of the weight block. -/
abbrev ldQ (o : Nat) (h : o + 128 ≤ 512) (x1 : Vec F S512x256 .i32) : Vec F S128x256 .i32 :=
  View.ld (Val := Elt F) x1 (Rect.unit (s := S512x256) ![o, 0] S128x256.size (Rect.inb₂ h (Nat.le_refl 256)))
/-- Group rows `[o, o + 8)` of a per-group block. -/
abbrev ldG (o : Nat) (h : o + 8 ≤ 32) (x : Vec F S32x256 .bf16) : Vec F S8x256 .bf16 :=
  View.ld (Val := Elt F) x (Rect.unit (s := S32x256) ![o, 0] S8x256.size (Rect.inb₂ h (Nat.le_refl 256)))
/-- Columns `[o, o + 1024)` of the activation block. -/
abbrev ldX (o : Nat) (h : o + 1024 ≤ 4096) (x0 : Vec F S1024x4096 .bf16) : Vec F S1024x1024 .bf16 :=
  View.ld (Val := Elt F) x0 (Rect.unit (s := S1024x4096) ![0, o] S1024x1024.size (Rect.inb₂ (Nat.le_refl 1024) h))

/-- What the body leaves in the output block: four steps from the bias rows, chunk by chunk. -/
theorem out_eq (c : Dev nD) (i : grid0.Coords) (arg2 : Memref sig .tc .vmem S1024x4096 .bf16) (harg2 : arg2.IsWhole) (arg3 : Memref sig .tc .vmem S512x256 .i32) (harg3 : arg3.IsWhole) (arg4 : Memref sig .tc .vmem S32x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S1024x256 .f32) (harg7 : arg7.IsWhole)
    (x0 : Vec F S1024x4096 .bf16) (x1 : Vec F S512x256 .i32) (x2 : Vec F S32x256 .bf16) (x3 : Vec F S32x256 .bf16) (x4 : Vec F S1x256 .f32) :
    out0_A_5 (F := F) c i arg2 harg2 arg3 harg3 arg4 harg4 arg5 harg5 arg6 harg6 arg7 harg7 x0 x1 x2 x3 x4 =
      step (step (step (step (biasRows x4)
              (sitofp .bf16 (fields (ldQ 0 (by decide) x1))) (ldG 0 (by decide) x2) (ldG 0 (by decide) x3) (ldX 0 (by decide) x0))
            (sitofp .bf16 (fields (ldQ 128 (by decide) x1))) (ldG 8 (by decide) x2) (ldG 8 (by decide) x3) (ldX 1024 (by decide) x0))
          (sitofp .bf16 (fields (ldQ 256 (by decide) x1))) (ldG 16 (by decide) x2) (ldG 16 (by decide) x3) (ldX 2048 (by decide) x0))
        (sitofp .bf16 (fields (ldQ 384 (by decide) x1))) (ldG 24 (by decide) x2) (ldG 24 (by decide) x3) (ldX 3072 (by decide) x0) := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  sl_unfold_words
  rw [View.canon_unit_zero zeros2]
  simp only [View.readAt_eq_ld, harg2.read_unread, harg3.read_unread, harg4.read_unread, harg5.read_unread, harg6.read_unread,
    View.ld_unit_zero (S := S1x256) zeros2]
  rw [pay1_eq, pay4_eq, pay3_eq, pay2_eq]

/-! ## The loads at an index -/

theorem ldQ_apply (o : Nat) (h : o + 128 ≤ 512) (x1 : S512x256.Idx → BitVec 32) (p : Fin 128) (n : Fin 256) :
    ldQ (F := Ideal) o h x1 (ix2 p n) = x1 (ix2 (⟨o + p.val, by omega⟩ : Fin 512) n) :=
  congrArg x1 (funext fun a => Fin.ext (by
    match a with
    | ⟨0, _⟩ => show o + 1 * p.val = o + p.val; omega
    | ⟨1, _⟩ => show 0 + 1 * n.val = n.val; omega))

theorem ldG_apply (o : Nat) (h : o + 8 ≤ 32) (x : S32x256.Idx → EReal) (g : Fin 8) (n : Fin 256) :
    ldG (F := Ideal) o h x (ix2 g n) = x (ix2 (⟨o + g.val, by omega⟩ : Fin 32) n) :=
  congrArg x (funext fun a => Fin.ext (by
    match a with
    | ⟨0, _⟩ => show o + 1 * g.val = o + g.val; omega
    | ⟨1, _⟩ => show 0 + 1 * n.val = n.val; omega))

theorem ldX_apply (o : Nat) (h : o + 1024 ≤ 4096) (x0 : S1024x4096.Idx → EReal) (r : Fin 1024) (j : Fin 1024) :
    ldX (F := Ideal) o h x0 (ix2 r j) = x0 (ix2 r (⟨o + j.val, by omega⟩ : Fin 4096)) :=
  congrArg x0 (funext fun a => Fin.ext (by
    match a with
    | ⟨0, _⟩ => show 0 + 1 * r.val = r.val; omega
    | ⟨1, _⟩ => show o + 1 * j.val = o + j.val; omega))

/-- The bias row repeated down the block reads the row's entry. -/
theorem biasRows_apply (b : S1x256.Idx → EReal) (r : Fin 1024) (n : Fin 256) :
    biasRows (F := Ideal) b (ix2 r n) = b (ix2 (0 : Fin 1) n) := by
  unfold biasRows
  rw [shapeCast_self, shapeCast_self]
  exact broadcastTo_apply b broadcasts_S1x256_S1024x256 (ix2 r n) (ix2 (0 : Fin 1) n) (fun a => match a with
    | ⟨0, _⟩ => by show (0 : Nat) = if (1 : Nat) = 1 then 0 else r.val; rw [if_pos rfl]
    | ⟨1, _⟩ => by show n.val = if (256 : Nat) = 1 then 0 else n.val; rw [if_neg (by decide)])

/-- One term of a chunk's sum, from the blocks: activation column `ox + j` times the dequantized weight whose packed row
    is `oq + j / 8`, field `j % 8`, group row `og + j / 128`. -/
theorem chunk_term (x0 : S1024x4096.Idx → EReal) (x1 : S512x256.Idx → BitVec 32) (x2 x3 : S32x256.Idx → EReal)
    (oq og ox : Nat) (hq : oq + 128 ≤ 512) (hg : og + 8 ≤ 32) (hx : ox + 1024 ≤ 4096) (r j : Fin 1024) (n : Fin 256) :
    ldX (F := Ideal) ox hx x0 (ix2 r j)
        * dequant (F := Ideal) (sitofp .bf16 (fields (F := Ideal) (ldQ (F := Ideal) oq hq x1))) (ldG (F := Ideal) og hg x2) (ldG (F := Ideal) og hg x3) (ix2 j n)
      = x0 (ix2 r (⟨ox + j.val, by omega⟩ : Fin 4096))
        * (((((nibble (x1 (ix2 (⟨oq + j.val / 8, by omega⟩ : Fin 512) n)) (⟨j.val % 8, by omega⟩ : Fin 8)).toInt : ℝ) : EReal)
              - x2 (ix2 (⟨og + j.val / 128, by omega⟩ : Fin 32) n))
            * x3 (ix2 (⟨og + j.val / 128, by omega⟩ : Fin 32) n)) := by
  rw [dequant_apply, ldX_apply, ldG_apply, ldG_apply]
  show _ * (((((fields (F := Ideal) (ldQ (F := Ideal) oq hq x1) (ix3 (⟨j.val / 8, by omega⟩ : Fin 128) (⟨j.val % 8, by omega⟩ : Fin 8) n)).toInt : ℝ) : EReal) - _) * _) = _
  rw [fields_apply, ldQ_apply]

end Cert.KernelIdeal.Body

end
-- ==== Proof.BlockValue.lean ====
/-
  The output block is a block of the layer.

  Let the point's activation block be rows `[1024·i₀, 1024·i₀ + 1024)` of the activations, and its weight, zero-point,
  scale and bias blocks be columns `[256·i₁, 256·i₁ + 256)` of their arrays, the zero-point block holding the integer zero
  points as reals. Then term `j` of chunk `c` is the layer's term at contraction index `1024c + j` (whose packed row is
  `128c + j / 8`, field `j % 8`, group `8c + j / 128`), so the four chunk sums are the four quarters of the contraction, and
  the block at `(r, n)` is the layer at `(1024·i₀ + r, 256·i₁ + n)`.
-/
import proofs.«422949_j85014582657685_3_alg».proof.Proof.BodyValue

set_option maxRecDepth 16384

noncomputable section

open scoped BigOperators

namespace Cert.KernelIdeal.Body

open Cert.KernelIdeal Cert.KernelIdeal.Gen Cert.KernelIdeal.Chunk Idealize.ShloMosaic Idealize.ShloMosaic.TcCoe
open Idealize.ShloMosaic.ValueIdx Idealize.SL.Sem Cert.Wol

/-- Term `j` of chunk `cc`, read from the blocks, is the layer's term at contraction index `1024·cc + j`. Here `ox = 1024·cc`
    is the chunk's first activation column, `oq = 128·cc` its first packed row and `og = 8·cc` its first group row. -/
theorem term_eq (X : S4096x4096.Idx → EReal) (QW : S512x11008.Idx → BitVec 32) (Z : S32x11008.Idx → BitVec 32)
    (SC : S32x11008.Idx → EReal)
    (x0 : S1024x4096.Idx → EReal) (x1 : S512x256.Idx → BitVec 32) (x2 x3 : S32x256.Idx → EReal) (i0 : Fin 4) (i1 : Fin 43)
    (h0 : ∀ (r : Fin 1024) (k : Fin 4096), x0 (ix2 r k) = X (ix2 (⟨1024 * i0.val + r.val, by omega⟩ : Fin 4096) k))
    (h1 : ∀ (p : Fin 512) (n : Fin 256), x1 (ix2 p n) = QW (ix2 p (⟨256 * i1.val + n.val, by omega⟩ : Fin 11008)))
    (h2 : ∀ (g : Fin 32) (n : Fin 256), x2 (ix2 g n) = (((Z (ix2 g (⟨256 * i1.val + n.val, by omega⟩ : Fin 11008))).toInt : ℝ) : EReal))
    (h3 : ∀ (g : Fin 32) (n : Fin 256), x3 (ix2 g n) = SC (ix2 g (⟨256 * i1.val + n.val, by omega⟩ : Fin 11008)))
    (r : Fin 1024) (n : Fin 256) (cc : Fin 4) (j : Fin 1024) (ox oq og : Nat)
    (hx : ox = 1024 * cc.val) (hq : oq = 128 * cc.val) (hg : og = 8 * cc.val) :
    x0 (ix2 r (⟨ox + j.val, by omega⟩ : Fin 4096))
        * (((((nibble (x1 (ix2 (⟨oq + j.val / 8, by omega⟩ : Fin 512) n)) (⟨j.val % 8, by omega⟩ : Fin 8)).toInt : ℝ) : EReal)
              - x2 (ix2 (⟨og + j.val / 128, by omega⟩ : Fin 32) n))
            * x3 (ix2 (⟨og + j.val / 128, by omega⟩ : Fin 32) n))
      = X (ix2 (⟨1024 * i0.val + r.val, by omega⟩ : Fin 4096) (chunkIdx cc j))
          * weight QW Z SC (chunkIdx cc j) (⟨256 * i1.val + n.val, by omega⟩ : Fin 11008) := by
  subst hx hq hg
  rw [h0, h1, h2, h3]
  unfold weight
  have e1 : chunkIdx cc j = (⟨1024 * cc.val + j.val, by omega⟩ : Fin 4096) :=
    Fin.ext (by show j.val + 1024 * cc.val = 1024 * cc.val + j.val; omega)
  have e2 : packRow (chunkIdx cc j) = (⟨128 * cc.val + j.val / 8, by omega⟩ : Fin 512) := Fin.ext (packRow_chunkIdx cc j)
  have e3 : field (chunkIdx cc j) = (⟨j.val % 8, by omega⟩ : Fin 8) := Fin.ext (field_chunkIdx cc j)
  have e4 : group (chunkIdx cc j) = (⟨8 * cc.val + j.val / 128, by omega⟩ : Fin 32) := Fin.ext (group_chunkIdx cc j)
  rw [e2, e3, e4, e1]

/-- The body's output block at `(r, n)` is the layer at `(1024·i₀ + r, 256·i₁ + n)`. -/
theorem block_value (X : S4096x4096.Idx → EReal) (QW : S512x11008.Idx → BitVec 32) (Z : S32x11008.Idx → BitVec 32)
    (SC : S32x11008.Idx → EReal) (B : S11008.Idx → EReal)
    (x0 : S1024x4096.Idx → EReal) (x1 : S512x256.Idx → BitVec 32) (x2 x3 : S32x256.Idx → EReal) (x4 : S1x256.Idx → EReal) (i0 : Fin 4) (i1 : Fin 43)
    (h0 : ∀ (r : Fin 1024) (k : Fin 4096), x0 (ix2 r k) = X (ix2 (⟨1024 * i0.val + r.val, by omega⟩ : Fin 4096) k))
    (h1 : ∀ (p : Fin 512) (n : Fin 256), x1 (ix2 p n) = QW (ix2 p (⟨256 * i1.val + n.val, by omega⟩ : Fin 11008)))
    (h2 : ∀ (g : Fin 32) (n : Fin 256), x2 (ix2 g n) = (((Z (ix2 g (⟨256 * i1.val + n.val, by omega⟩ : Fin 11008))).toInt : ℝ) : EReal))
    (h3 : ∀ (g : Fin 32) (n : Fin 256), x3 (ix2 g n) = SC (ix2 g (⟨256 * i1.val + n.val, by omega⟩ : Fin 11008)))
    (h4 : ∀ (n : Fin 256), x4 (ix2 (0 : Fin 1) n) = B (ix1 (⟨256 * i1.val + n.val, by omega⟩ : Fin 11008)))
    (c : Dev nD) (i : grid0.Coords) (arg2 : Memref sig .tc .vmem S1024x4096 .bf16) (harg2 : arg2.IsWhole) (arg3 : Memref sig .tc .vmem S512x256 .i32) (harg3 : arg3.IsWhole) (arg4 : Memref sig .tc .vmem S32x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S1024x256 .f32) (harg7 : arg7.IsWhole) (r : Fin 1024) (n : Fin 256) :
    out0_A_5 (F := Ideal) c i arg2 harg2 arg3 harg3 arg4 harg4 arg5 harg5 arg6 harg6 arg7 harg7 x0 x1 x2 x3 x4 (ix2 r n)
      = linear X QW Z SC B (ix2 (⟨1024 * i0.val + r.val, by omega⟩ : Fin 4096) (⟨256 * i1.val + n.val, by omega⟩ : Fin 11008)) := by
  rw [out_eq, step_apply, step_apply, step_apply, step_apply, biasRows_apply, h4]
  refine Eq.trans ?_ (chunks_onto_bias (B (ix1 (⟨256 * i1.val + n.val, by omega⟩ : Fin 11008)))
    (fun k => X (ix2 (⟨1024 * i0.val + r.val, by omega⟩ : Fin 4096) k) * weight QW Z SC k (⟨256 * i1.val + n.val, by omega⟩ : Fin 11008)))
  refine congrArg₂ (· + ·) (congrArg₂ (· + ·) (congrArg₂ (· + ·) (congrArg (B (ix1 (⟨256 * i1.val + n.val, by omega⟩ : Fin 11008)) + ·) ?_) ?_) ?_) ?_
  · exact Finset.sum_congr rfl fun j _ =>
      (chunk_term x0 x1 x2 x3 0 0 0 (by decide) (by decide) (by decide) r j n).trans
        (term_eq X QW Z SC x0 x1 x2 x3 i0 i1 h0 h1 h2 h3 r n 0 j 0 0 0 rfl rfl rfl)
  · exact Finset.sum_congr rfl fun j _ =>
      (chunk_term x0 x1 x2 x3 128 8 1024 (by decide) (by decide) (by decide) r j n).trans
        (term_eq X QW Z SC x0 x1 x2 x3 i0 i1 h0 h1 h2 h3 r n 1 j 1024 128 8 rfl rfl rfl)
  · exact Finset.sum_congr rfl fun j _ =>
      (chunk_term x0 x1 x2 x3 256 16 2048 (by decide) (by decide) (by decide) r j n).trans
        (term_eq X QW Z SC x0 x1 x2 x3 i0 i1 h0 h1 h2 h3 r n 2 j 2048 256 16 rfl rfl rfl)
  · exact Finset.sum_congr rfl fun j _ =>
      (chunk_term x0 x1 x2 x3 384 24 3072 (by decide) (by decide) (by decide) r j n).trans
        (term_eq X QW Z SC x0 x1 x2 x3 i0 i1 h0 h1 h2 h3 r n 3 j 3072 384 24 rfl rfl rfl)

end Cert.KernelIdeal.Body

end
-- ==== Proof.KernelValue.lean ====
/-
  The kernel's result array is the layer of its arguments.

  Before the region the host widens nothing and narrows three arrays to a shorter float format — the identity on
  extended reals —, converts the integer zero points `Z` to floats exactly, and views the bias as one row. The grid is
  4 × 43: point `(i₀, i₁)` stages activation rows `[1024·i₀, …)`, columns `[256·i₁, …)` of the packed weights, zero
  points, scales and bias, and writes back rows `[1024·i₀, …)`, columns `[256·i₁, …)` of the result. By the block's value
  every point writes back a block of the layer; the 172 output blocks tile the 4096 × 11008 result (point
  `(r / 1024, n / 256)` covers `(r, n)`), so the result array ends as the layer.
-/
import proofs.«422949_j85014582657685_3_alg».proof.Proof.Gen.KernelIdeal.Value
import proofs.«422949_j85014582657685_3_alg».proof.Proof.BlockValue
import Idealize.ShloMosaic.Lib.StableHlo.Run

set_option maxRecDepth 16384

noncomputable section

open scoped BigOperators

namespace Cert.KernelIdeal.Layer

open Cert.KernelIdeal Cert.KernelIdeal.Gen Cert.KernelIdeal.Value Cert.KernelIdeal.Body Idealize.ShloMosaic Idealize.ShloMosaic.TcCoe
open Idealize.ShloMosaic.ValueIdx Idealize.SL.Sem Cert.Wol Idealize.ShloMosaic.StableHlo
open Idealize.ShloMosaic.Pipeline (Dat)

variable (m : (ℓ : Loc nD τ sig) → Buf (Elt Ideal) ℓ) (ρ : Dev nD → PrngReg)

/-! ## The arrays the windows stage, as the region finds them -/

/-- The activations, narrowed: unchanged as extended reals. -/
theorem V_act (c : Dev nD) : (V m c main_v16 : S4096x4096.Idx → EReal) = m ((c : Thread nD τ).loc main_arg0) := by
  dsimp only [V, hostOps0]; after_results; rfl

/-- The scales, narrowed: unchanged as extended reals. -/
theorem V_scale (c : Dev nD) : (V m c main_v14 : S32x11008.Idx → EReal) = m ((c : Thread nD τ).loc main_arg3) := by
  dsimp only [V, hostOps0]; after_results; rfl

/-- The zero points as floats: the integer zero points, exactly. -/
theorem V_zero (c : Dev nD) :
    (V m c main_v13 : S32x11008.Idx → EReal) = fun i => (((V m c main_v12 i).toInt : ℝ) : EReal) := by
  dsimp only [V, hostOps0]; after_results; rfl

/-- The bias viewed as one row. -/
theorem V_bias (c : Dev nD) (j : S1x11008.Idx) :
    (V m c main_v15 : S1x11008.Idx → EReal) j = m ((c : Thread nD τ).loc main_arg4) (ix1 (j 1)) := by
  have e : (V m c main_v15 : S1x11008.Idx → EReal) = shapeCast S1x11008 (m ((c : Thread nD τ).loc main_arg4)) shapeCasts_S11008_S1x11008 := by
    dsimp only [V, hostOps0]; after_results; rfl
  rw [e]
  exact shapeCast_apply _ shapeCasts_S11008_S1x11008 j (ix1 (j 1)) (by
    rw [Shape.rowMajor_val_one, Shape.rowMajor_val_two]
    have h0 : (j 0).val < 1 := (j 0).isLt
    show (j 1).val = (j 0).val * 11008 + (j 1).val
    omega)

/-! ## The index maps over the grid -/

/-- Each input window's block index in terms of the output's, and the output's ranges, decided over the 172 points. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = win0_5.index t (1 : Fin 2)
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 3 ∧ win0_5.index t (1 : Fin 2) ≤ 42 :=
  (by decide +kernel : ∀ t : Fin grid0.N, _)

/-- Every output block is some point's. -/
theorem idx_onto : ∀ (q0 : Fin 4) (q1 : Fin 43), ∃ t : Fin cfg0.N, win0_5.index t = ![q0.val, q1.val] :=
  (by decide +kernel : ∀ (q0 : Fin 4) (q1 : Fin 43), ∃ t : Fin grid0.N, win0_5.index t = ![q0.val, q1.val])

/-! ## What each point writes back -/

/-- Point `t` writes back block `t` of the layer of the argument arrays. -/
theorem flushed_eq (c : Dev nD) (t : Fin cfg0.N) :
    (dats m 0 c).flushed 5 t = ((cfg0.win 5).blk t).view.read (Elt Ideal) (linear (m ((c : Thread nD τ).loc main_arg0)) (m ((c : Thread nD τ).loc main_arg1)) (V m c main_v12) (m ((c : Thread nD τ).loc main_arg3)) (m ((c : Thread nD τ).loc main_arg4))) := by
  rw [flushed5_A]
  obtain ⟨e00, e01, e10, e11, e20, e21, e30, e31, e40, e41, b0, b1⟩ := idx_facts t
  have h0 : ∀ (r : Fin 1024) (k : Fin 4096), (iblk m c 0 t : S1024x4096.Idx → EReal) (ix2 r k)
      = m ((c : Thread nD τ).loc main_arg0) (ix2 (⟨1024 * (⟨win0_5.index t (0 : Fin 2), by omega⟩ : Fin 4).val + r.val, by omega⟩ : Fin 4096) k) := by
    intro r k
    show V m c main_v16 (((cfg0.win 0).blk t).view.emb (ix2 r k)) = _
    refine (congrFun (V_act m c) _).trans (congrArg _ (funext fun a => Fin.ext ?_))
    match a with
    | ⟨0, _⟩ => show win0_0.index t (0 : Fin 2) * 1024 + 1 * r.val = 1024 * win0_5.index t (0 : Fin 2) + r.val; omega
    | ⟨1, _⟩ => show win0_0.index t (1 : Fin 2) * 4096 + 1 * k.val = k.val; omega
  have h1 : ∀ (p : Fin 512) (n : Fin 256), (iblk m c 1 t : S512x256.Idx → BitVec 32) (ix2 p n)
      = m ((c : Thread nD τ).loc main_arg1) (ix2 p (⟨256 * (⟨win0_5.index t (1 : Fin 2), by omega⟩ : Fin 43).val + n.val, by omega⟩ : Fin 11008)) := by
    intro p n
    show V m c main_arg1 (((cfg0.win 1).blk t).view.emb (ix2 p n)) = _
    refine (congrFun (V_main_arg1 m c) _).trans (congrArg _ (funext fun a => Fin.ext ?_))
    match a with
    | ⟨0, _⟩ => show win0_1.index t (0 : Fin 2) * 512 + 1 * p.val = p.val; omega
    | ⟨1, _⟩ => show win0_1.index t (1 : Fin 2) * 256 + 1 * n.val = 256 * win0_5.index t (1 : Fin 2) + n.val; omega
  have h2 : ∀ (g : Fin 32) (n : Fin 256), (iblk m c 2 t : S32x256.Idx → EReal) (ix2 g n)
      = (((V m c main_v12 (ix2 g (⟨256 * (⟨win0_5.index t (1 : Fin 2), by omega⟩ : Fin 43).val + n.val, by omega⟩ : Fin 11008))).toInt : ℝ) : EReal) := by
    intro g n
    show V m c main_v13 (((cfg0.win 2).blk t).view.emb (ix2 g n)) = _
    refine (congrFun (V_zero m c) _).trans (congrArg (fun i => (((V m c main_v12 i).toInt : ℝ) : EReal)) (funext fun a => Fin.ext ?_))
    match a with
    | ⟨0, _⟩ => show win0_2.index t (0 : Fin 2) * 32 + 1 * g.val = g.val; omega
    | ⟨1, _⟩ => show win0_2.index t (1 : Fin 2) * 256 + 1 * n.val = 256 * win0_5.index t (1 : Fin 2) + n.val; omega
  have h3 : ∀ (g : Fin 32) (n : Fin 256), (iblk m c 3 t : S32x256.Idx → EReal) (ix2 g n)
      = m ((c : Thread nD τ).loc main_arg3) (ix2 g (⟨256 * (⟨win0_5.index t (1 : Fin 2), by omega⟩ : Fin 43).val + n.val, by omega⟩ : Fin 11008)) := by
    intro g n
    show V m c main_v14 (((cfg0.win 3).blk t).view.emb (ix2 g n)) = _
    refine (congrFun (V_scale m c) _).trans (congrArg _ (funext fun a => Fin.ext ?_))
    match a with
    | ⟨0, _⟩ => show win0_3.index t (0 : Fin 2) * 32 + 1 * g.val = g.val; omega
    | ⟨1, _⟩ => show win0_3.index t (1 : Fin 2) * 256 + 1 * n.val = 256 * win0_5.index t (1 : Fin 2) + n.val; omega
  have h4 : ∀ (n : Fin 256), (iblk m c 4 t : S1x256.Idx → EReal) (ix2 (0 : Fin 1) n)
      = m ((c : Thread nD τ).loc main_arg4) (ix1 (⟨256 * (⟨win0_5.index t (1 : Fin 2), by omega⟩ : Fin 43).val + n.val, by omega⟩ : Fin 11008)) := by
    intro n
    show V m c main_v15 (((cfg0.win 4).blk t).view.emb (ix2 (0 : Fin 1) n)) = _
    refine (V_bias m c _).trans (congrArg _ (funext fun a => Fin.ext ?_))
    match a with
    | ⟨0, _⟩ => show win0_4.index t (1 : Fin 2) * 256 + 1 * n.val = 256 * win0_5.index t (1 : Fin 2) + n.val; omega
  funext y
  obtain ⟨r, n, rfl⟩ : ∃ (r : Fin 1024) (n : Fin 256), y = ix2 r n := ⟨y 0, y 1, eq_ix2 y⟩
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t)
      (iblk m c 0 t) (iblk m c 1 t) (iblk m c 2 t) (iblk m c 3 t) (iblk m c 4 t) (ix2 r n)
    = (linear (m ((c : Thread nD τ).loc main_arg0)) (m ((c : Thread nD τ).loc main_arg1)) (V m c main_v12) (m ((c : Thread nD τ).loc main_arg3)) (m ((c : Thread nD τ).loc main_arg4))) (((cfg0.win 5).blk t).view.emb (ix2 r n))
  refine (block_value (m ((c : Thread nD τ).loc main_arg0)) (m ((c : Thread nD τ).loc main_arg1)) (V m c main_v12) (m ((c : Thread nD τ).loc main_arg3)) (m ((c : Thread nD τ).loc main_arg4))
    (iblk m c 0 t) (iblk m c 1 t) (iblk m c 2 t) (iblk m c 3 t) (iblk m c 4 t)
    (⟨win0_5.index t (0 : Fin 2), by omega⟩ : Fin 4) (⟨win0_5.index t (1 : Fin 2), by omega⟩ : Fin 43) h0 h1 h2 h3 h4
    c (grid0.coords t) (ms0_0 t) (hs0_0 t) (ms0_1 t) (hs0_1 t) (ms0_2 t) (hs0_2 t) (ms0_3 t) (hs0_3 t) (ms0_4 t) (hs0_4 t) (ms0_5 t) (hs0_5 t) r n).trans
    (congrArg (linear (m ((c : Thread nD τ).loc main_arg0)) (m ((c : Thread nD τ).loc main_arg1)) (V m c main_v12) (m ((c : Thread nD τ).loc main_arg3)) (m ((c : Thread nD τ).loc main_arg4))) (funext fun a => Fin.ext ?_))
  match a with
  | ⟨0, _⟩ => show 1024 * win0_5.index t (0 : Fin 2) + r.val = win0_5.index t (0 : Fin 2) * 1024 + 1 * r.val; omega
  | ⟨1, _⟩ => show 256 * win0_5.index t (1 : Fin 2) + n.val = win0_5.index t (1 : Fin 2) * 256 + 1 * n.val; omega

/-! ## The output blocks tile the result -/

/-- An index of the result is in point `t`'s block iff each coordinate is in the block's range on its axis. -/
theorem mem_blk (t : Fin cfg0.N) (i : S4096x11008.Idx) :
    i ∈ ((cfg0.win 5).blk t).view.set ↔ ∀ a : Fin 2, win0_5.index t a * S1024x256.size a ≤ (i a).val
      ∧ (i a).val < win0_5.index t a * S1024x256.size a + S1024x256.size a := by
  show i ∈ ((View.whole main_v17).slice (win0_5.rect t)).set ↔ _
  rw [View.set_slice_whole, Rect.mem_set_unit]
  exact Iff.rfl

/-- Every index of the result is in some point's block: the point at `(r / 1024, n / 256)`. -/
theorem cover (i : S4096x11008.Idx) :
    ∃ t : Fin cfg0.N, (cfg0.win 5).flush t = true ∧ i ∈ ((cfg0.win 5).blk t).view.set := by
  have hi0 : (i 0).val < 4096 := (i 0).isLt
  have hi1 : (i 1).val < 11008 := (i 1).isLt
  obtain ⟨t, ht⟩ := idx_onto ⟨(i 0).val / 1024, by omega⟩ ⟨(i 1).val / 256, by omega⟩
  have q0 : win0_5.index t (0 : Fin 2) = (i 0).val / 1024 := congrFun ht 0
  have q1 : win0_5.index t (1 : Fin 2) = (i 1).val / 256 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 256 ≤ (i 1).val ∧ (i 1).val < win0_5.index t (1 : Fin 2) * 256 + 256; omega

/-! ## The result array, and the run -/

/-- After the run the result array is the layer of the argument arrays. -/
theorem final (c : Dev nD) : (dats m 0 c).arrAt 5 cfg0.N = linear (m ((c : Thread nD τ).loc main_arg0)) (m ((c : Thread nD τ).loc main_arg1)) (V m c main_v12) (m ((c : Thread nD τ).loc main_arg3)) (m ((c : Thread nD τ).loc main_arg4)) :=
  (dats m 0 c).arrAt_eq_of_cover 5 _ (fun t _ => flushed_eq m c t) cover

/-- Every weakly fair execution of the idealized kernel terminates with its result at the layer of its arguments, the
    arguments unchanged. -/
theorem run : θ_run defs (onTc (τ := τ) (main (F := Ideal))) ⟨m, fun _ => 0, ρ⟩ fun r => ∀ c : Dev nD,
      r.2.mem ((c : Thread nD τ).loc main_v17) = linear (m ((c : Thread nD τ).loc main_arg0)) (m ((c : Thread nD τ).loc main_arg1)) (V m c main_v12) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Layer

end
-- ==== Proof.RefIsLinear.lean ====
/-
  The reference computes the layer.

  Its weight stage unpacks every packed word along a new axis of eight, flattens `(p, s)` to input row `8p + s`,
  regroups the rows by 128, subtracts the group's zero point and multiplies by the group's scale. Read at input row `k`,
  output column `n`, that is the specification's weight: packed row `k / 8`, field `k % 8`, group `k / 128` — the
  row-major bookkeeping of the two reshapes is arithmetic on `k · 11008 + n` with `n < 11008`. The zero points enter
  only as the integer array the reference itself builds from the packed zero words; it is kept whole, not read.
  The contraction is the plain sum over the 4096 input rows, and the bias row is added last.
-/
import proofs.«422949_j85014582657685_3_alg».proof.Proof.Gen.ReferenceIdeal.Read
import proofs.«422949_j85014582657685_3_alg».proof.Proof.Spec

noncomputable section

open scoped BigOperators

namespace Cert.ReferenceIdeal.IsLinear

open Cert.ReferenceIdeal Cert.ReferenceIdeal.Gen Cert.ReferenceIdeal.Read Idealize.ShloMosaic Idealize.ShloMosaic.ValueIdx Cert.Wol

/-- The reference's weight stage at input row `k`, output column `n`. -/
theorem weight_stage (x1 : S512x11008.Idx → BitVec 32) (x2 : S32x1376.Idx → BitVec 32) (x3 : S32x11008.Idx → EReal)
    (k : Fin 4096) (n : Fin 11008) :
    val_main_v30 (F := Ideal) x1 x2 x3 (ix2 k n) = weight x1 (val_main_v20 (F := Ideal) x2) x3 k n := by
  have hk : k.val < 4096 := k.isLt
  have hn : n.val < 11008 := n.isLt
  have h1 : idx_main_v3 (idx_main_v5 (idx_main_v10 (idx_main_v21 (idx_main_v30 (ix2 k n))))) = ix2 (packRow k) n :=
    funext fun a => Fin.ext (by
      match a with
      | ⟨0, _⟩ =>
        show ((((k.val * 11008 + n.val) / 1409024 * 128 + (k.val * 11008 + n.val) / 11008 % 128) * 11008 + (k.val * 11008 + n.val) % 11008) / 11008 * 11008
            + (((k.val * 11008 + n.val) / 1409024 * 128 + (k.val * 11008 + n.val) / 11008 % 128) * 11008 + (k.val * 11008 + n.val) % 11008) % 11008) / 88064 = k.val / 8
        omega
      | ⟨1, _⟩ =>
        show ((((k.val * 11008 + n.val) / 1409024 * 128 + (k.val * 11008 + n.val) / 11008 % 128) * 11008 + (k.val * 11008 + n.val) % 11008) / 11008 * 11008
            + (((k.val * 11008 + n.val) / 1409024 * 128 + (k.val * 11008 + n.val) / 11008 % 128) * 11008 + (k.val * 11008 + n.val) % 11008) % 11008) % 11008 = n.val
        omega)
  have h2 : ((idx_main_v4 (idx_main_v6 (idx_main_v10 (idx_main_v21 (idx_main_v30 (ix2 k n)))))) 0).val = (field k).val := by
    show ((((k.val * 11008 + n.val) / 1409024 * 128 + (k.val * 11008 + n.val) / 11008 % 128) * 11008 + (k.val * 11008 + n.val) % 11008) / 11008 * 11008
        + (((k.val * 11008 + n.val) / 1409024 * 128 + (k.val * 11008 + n.val) / 11008 % 128) * 11008 + (k.val * 11008 + n.val) % 11008) % 11008) / 11008 % 8 = k.val % 8
    omega
  have h3 : idx_main_v23 (idx_main_v25 (idx_main_v30 (ix2 k n))) = ix2 (group k) n :=
    funext fun a => Fin.ext (by
      match a with
      | ⟨0, _⟩ => show (k.val * 11008 + n.val) / 1409024 = k.val / 128; omega
      | ⟨1, _⟩ => show (k.val * 11008 + n.val) % 11008 = n.val; omega)
  have h4 : idx_main_v27 (idx_main_v28 (idx_main_v30 (ix2 k n))) = ix2 (group k) n :=
    funext fun a => Fin.ext (by
      match a with
      | ⟨0, _⟩ => show (k.val * 11008 + n.val) / 1409024 = k.val / 128; omega
      | ⟨1, _⟩ => show (k.val * 11008 + n.val) % 11008 = n.val; omega)
  rw [val_main_v30_apply, val_main_v29_apply, val_main_v26_apply, val_main_v22_apply, val_main_v21_apply, val_main_v10_apply,
    val_main_v9_apply, val_main_v7_apply, val_main_v5_apply, val_main_v3_apply, val_main_v6_apply, val_main_v4_apply,
    val_main_v2_apply, val_main_v0_apply, val_main_v1_apply, val_main_c_apply, val_main_v8_apply, val_main_c_0_apply,
    val_main_v25_apply, val_main_v24_apply, val_main_v23_apply, val_main_v28_apply, val_main_v27_apply, h1, h2, h3, h4]
  rfl

/-- The reference's result is the layer of its arguments, the zero points as the integer array it builds. -/
theorem result_eq (x0 : S4096x4096.Idx → EReal) (x1 : S512x11008.Idx → BitVec 32) (x2 : S32x1376.Idx → BitVec 32)
    (x3 : S32x11008.Idx → EReal) (x4 : S11008.Idx → EReal) :
    val_main_v34 (F := Ideal) x0 x1 x2 x3 x4 = linear x0 x1 (val_main_v20 (F := Ideal) x2) x3 x4 := by
  funext i
  obtain ⟨r, n, rfl⟩ : ∃ (r : Fin 4096) (n : Fin 11008), i = ix2 r n := ⟨i 0, i 1, eq_ix2 i⟩
  have eb : idx_main_v32 (idx_main_v33 (ix2 r n)) = ix1 n := funext fun a => Fin.ext (by
    match a with
    | ⟨0, _⟩ => rfl)
  rw [val_main_v34_apply, val_main_v31_apply, val_main_v33_apply, val_main_v32_apply, eb]
  show (∑ k : Fin 4096, x0 (lidx_main_v31 (ix2 r n) k) * val_main_v30 (F := Ideal) x1 x2 x3 (ridx_main_v31 (ix2 r n) k)) + x4 (ix1 n) = _
  refine congrArg (· + x4 (ix1 n)) (Finset.sum_congr rfl fun k _ => ?_)
  have el : lidx_main_v31 (ix2 r n) k = ix2 r k := funext fun a => Fin.ext (by
    match a with
    | ⟨0, _⟩ => rfl
    | ⟨1, _⟩ => rfl)
  have er : ridx_main_v31 (ix2 r n) k = ix2 k n := funext fun a => Fin.ext (by
    match a with
    | ⟨0, _⟩ => rfl
    | ⟨1, _⟩ => rfl)
  rw [el, er, weight_stage]

end Cert.ReferenceIdeal.IsLinear

end
-- ==== Proof.lean ====
/-
  A weight-only int4 linear layer — 4096 tokens, 4096 input features, 11008 output features, weights packed eight 4-bit
  fields to a 32-bit word along the input axis, one zero point and one scale per group of 128 input rows and output
  column — as a tiled kernel, against its plain reference, on the extended reals.

  Both compute  out[r, n] = Σ_k x[r, k] · (w[k, n] − Z[k / 128, n]) · sc[k / 128, n] + bias[n],  with `w[k, n]` field
  `k % 8` of packed word `(k / 8, n)` and `Z` the integer zero point (the unpacked field plus one), both read as exact
  integers. The reference unpacks, dequantizes and multiplies whole arrays. The kernel narrows activations, scales and
  the converted zero points to a shorter float format on the host — the identity on extended reals —, then on a 4 × 43
  grid each point takes 1024 token rows and 256 output columns, starts its accumulator at the bias and adds the
  contraction in four chunks of 1024 input rows, unpacking and dequantizing each chunk in place. The zero points are
  the same integer array on both sides, built by the same host operations. What joins the two is reassociation and
  commutation of extended-real sums only: four consecutive quarter sums are the whole sum, and the bias added first
  is the bias added last. No product is distributed and nothing is cancelled, so the inputs' finiteness is not used.

  The kernel's frames are the generated ones; the reference's frame is its generated run with the result dropped; the
  idealization rewrote nothing, so there is nothing to preserve.
-/
import proofs.«422949_j85014582657685_3_alg».proof.Defs
import proofs.«422949_j85014582657685_3_alg».proof.Proof.Gen.Kernel
import proofs.«422949_j85014582657685_3_alg».proof.Proof.Gen.Kernel.Skeleton
import proofs.«422949_j85014582657685_3_alg».proof.Proof.Gen.Kernel.Launch
import proofs.«422949_j85014582657685_3_alg».proof.Proof.Gen.Kernel.Points
import proofs.«422949_j85014582657685_3_alg».proof.Proof.Gen.Kernel.Frame
import proofs.«422949_j85014582657685_3_alg».proof.Proof.Gen.KernelIdeal
import proofs.«422949_j85014582657685_3_alg».proof.Proof.Gen.KernelIdeal.Skeleton
import proofs.«422949_j85014582657685_3_alg».proof.Proof.Gen.KernelIdeal.Launch
import proofs.«422949_j85014582657685_3_alg».proof.Proof.Gen.KernelIdeal.Points
import proofs.«422949_j85014582657685_3_alg».proof.Proof.Gen.KernelIdeal.Frame
import proofs.«422949_j85014582657685_3_alg».proof.Proof.Gen.ReferenceIdeal
import proofs.«422949_j85014582657685_3_alg».proof.Proof.Gen.Pre_finite_inputs
import proofs.«422949_j85014582657685_3_alg».proof.Proof.Gen.KernelIdeal.Value
import proofs.«422949_j85014582657685_3_alg».proof.Proof.Gen.ReferenceIdeal.Run
import proofs.«422949_j85014582657685_3_alg».proof.Proof.Gen.ReferenceIdeal.Read
import proofs.«422949_j85014582657685_3_alg».proof.Proof.KernelValue
import proofs.«422949_j85014582657685_3_alg».proof.Proof.RefIsLinear
import Idealize.ShloMosaic.Adequacy
import Idealize.ShloMosaic.Init

noncomputable section

namespace Cert.Proof

open Idealize.ShloMosaic Idealize.ShloMosaic.TcCoe Idealize.SL.Sem Idealize.ShloMosaic.StableHlo Cert.Wol

/-! ## The frames -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-! ## The two sides' zero points -/

/-- The integer zero points the kernel's host prefix builds from the packed zero words are the array the reference
    builds from them: the same operations in the same order. -/
theorem zero_points_agree (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v12 : Cert.KernelIdeal.S32x11008.Idx → BitVec 32)
      = Cert.ReferenceIdeal.Read.val_main_v20 (F := Ideal) (m ((c : Thread Cert.KernelIdeal.nD Cert.KernelIdeal.τ).loc Cert.KernelIdeal.main_arg2)) := by
  dsimp only [Cert.KernelIdeal.Gen.V, Cert.KernelIdeal.Gen.hostOps0]; after_results; rfl

/-! ## The value claim -/

/-- From memories agreeing on the arguments, both idealized programs end with the layer of those arguments as their result. -/
theorem algebraic : Cert.algebraic_KernelIdeal_ReferenceIdeal := by
  intro m ρ m' ρ' _ hagree
  refine ⟨fun c => linear (m ((c : Thread Cert.KernelIdeal.nD Cert.KernelIdeal.τ).loc Cert.KernelIdeal.main_arg0)) (m ((c : Thread Cert.KernelIdeal.nD Cert.KernelIdeal.τ).loc Cert.KernelIdeal.main_arg1)) (Cert.KernelIdeal.Gen.V m c Cert.KernelIdeal.main_v12)
      (m ((c : Thread Cert.KernelIdeal.nD Cert.KernelIdeal.τ).loc Cert.KernelIdeal.main_arg3)) (m ((c : Thread Cert.KernelIdeal.nD Cert.KernelIdeal.τ).loc Cert.KernelIdeal.main_arg4)), Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.IsLinear.result_eq,
    (hagree c).1, (hagree c).2.1, (hagree c).2.2.1, (hagree c).2.2.2.1, (hagree c).2.2.2.2, ← zero_points_agree]

/-! ## The certificate -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
